-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S_ : Shape := ⟨0, ![]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel

variable [Facts]

def fn {F : FTy → Type} [FloatOps F] (main_arg0 : FVec F S64x2048x1024 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  main_v3
-- ==== Kernel.lean ====
abbrev S64x2048x1024 : Shape := ⟨3, ![64, 2048, 1024]⟩
abbrev S131072x1024 : Shape := ⟨2, ![131072, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S64x2048x1024, .f32⟩
  | .hbm, ⟨1, _⟩ => ⟨S131072x1024, .f32⟩
  | .hbm, ⟨2, _⟩ => ⟨S131072x1024, .f32⟩
  | .hbm, ⟨3, _⟩ => ⟨S64x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x2048x1024_S131072x1024 : S64x2048x1024.ShapeCasts S131072x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S131072x1024_S64x2048x1024 : S131072x1024.ShapeCasts S64x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S131072x1024.size a
  hwx0_1 : ∀ i : grid0.Coords, EltTy.bits .f32 = 32 ∨ (Rect.block (s := S131072x1024) S1024x1024.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048x1024 : Shape := ⟨3, ![64, 2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S_, .f32⟩
  | .hbm, ⟨2, _⟩ => ⟨S64x2048x1024, .f32⟩
  | .hbm, ⟨3, _⟩ => ⟨S64x2048x1024, .f32⟩
  | .hbm, ⟨4, _⟩ => ⟨S_, .f32⟩
  | .hbm, ⟨5, _⟩ => ⟨S64x2048x1024, .f32⟩
  | .hbm, ⟨6, _⟩ => ⟨S64x2048x1024, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S64x2048x1024 : S_.BroadcastsInDim S64x2048x1024 (![] : Fin 0 → Fin S64x2048x1024.rank)

variable [Facts₀]

class Facts : Prop extends Facts₀ where

variable [Facts]
-- ==== Proof.Affine.lean ====
/-
  The elementwise map of this certificate and the two facts about regrouping that its proof uses.

  Both programs send every element `x` of the input to `x · 2 + 2`, the literal `2` being on both sides the one
  f32 word `0x40000000`. The kernel does so on a regrouping of the `64 × 2048 × 1024` input as `131072 × 1024`
  rows (same elements, same row-major order), block of 1024 rows by block, and regroups the result back; the
  reference does so on the input as it stands. Since the map acts on each element alone, it commutes with a
  regrouping, and regrouping there and back is the identity: so the two results are one array. Nothing here
  depends on what the float operations are, so everything is stated for any reading `F` of the floats.
-/
import Idealize.ShloMosaic.PureOps
import Idealize.ShloMosaic.Lib.Pipeline.Value

noncomputable section

namespace Cert.Affine

open Idealize.ShloMosaic

variable {F : FTy → Type} [FloatOps F]

/-- The f32 word both programs print for the constant `2`. -/
abbrev two : F .f32 := FloatOps.ofBits .f32 0x40000000#32

/-- The map applied to every element: `x ↦ x · 2 + 2`. -/
def step (x : F .f32) : F .f32 := FloatOps.addf (FloatOps.mulf x two) two

/-- Applying one map to every element commutes with regrouping the elements, in row-major order, under another
    shape: element `j` of the regrouped array is one element of the original, whichever is done first. -/
theorem shapeCast_map {s t : Shape} {α β : Type} (f : α → β) (x : s.Idx → α) (h : s.ShapeCasts t) :
    shapeCast t (fun i => f (x i)) h = fun j => f (shapeCast t x h j) := rfl

/-- Regroup, apply the map to every element, regroup back: that is the map applied to every element of the
    original array. -/
theorem regroup_map_regroup {s t : Shape} {α β : Type} (f : α → β) (x : s.Idx → α) (h : s.ShapeCasts t)
    (h' : t.ShapeCasts s) : shapeCast s (fun i => f (shapeCast t x h i)) h' = fun j => f (x j) := by
  rw [shapeCast_map]
  funext j
  rw [shapeCast_shapeCast]

end Cert.Affine

end
-- ==== Proof.KernelValue.lean ====
/-
  What the kernel's program leaves in its result, element by element.

  The program regroups the `64 × 2048 × 1024` input as `131072 × 1024` rows, runs the kernel over a grid of 128
  points, and regroups the `131072 × 1024` output back. At point `t` the kernel reads rows `1024 t … 1024 t + 1023`
  of the regrouped input (all 1024 columns), applies `x ↦ x · 2 + 2` to every element, and writes the result to
  the same rows of the output. So what point `t` writes back is block `t` of ONE array, the map applied to every
  element of the regrouped input; the 128 blocks tile the output (row `r` lies in block `r / 1024`), so the
  output ends as that array; and since the map acts on each element alone, regrouping back gives the map applied
  to every element of the input as it was passed.
-/
import proofs.«419207_j76166950027787_3_alg».proof.Proof.Gen.KernelIdeal.Frame
import proofs.«419207_j76166950027787_3_alg».proof.Proof.Affine
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- The body's one load and one store go through the whole `1024 × 1024` staging buffer: offsets zero. -/
theorem offsets_zero : (![0, 0] : Fin 2 → Nat) = fun _ => 0 := funext fun a => by fin_cases a <;> rfl

/-- The array the region's output ends holding: the map applied to every element of the region's input array. -/
abbrev mapped (a : S131072x1024.Idx → Elt F .f32) : S131072x1024.Idx → Elt F .f32 :=
  fun i => Cert.Affine.step (a i)

/-- The body's stored value is the map applied to every element of the block it loaded (the cast to the block's own
    shape is the identity; a broadcast scalar reads that scalar everywhere). -/
theorem stored_eq (x : Vec F S1024x1024 .f32) : k0_pay1 x = fun i => Cert.Affine.step (x i) := by
  unfold k0_pay1
  dsimp only
  rw [shapeCast_self]
  rfl

/-- The index maps over the grid: at point `t` both windows sit at block row `t`, block column `0`. -/
theorem block_at : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the mapped input array: the input block and the output block at
    `t` are the same rows and columns. -/
theorem written_eq (c : Dev nD) (t : Fin cfg0.N) :
    (dats m 0 c).flushed 1 t = ((cfg0.win 1).blk t).view.read (Elt F) (mapped (V m c main_v0)) := by
  show (cfg0.win 1).cut (grid0.coords t) ((dats m 0 c).after 1 t) = _
  rw [after0_1]
  unfold out0_1
  rw [View.canon_unit_zero offsets_zero]
  simp only [View.ld_unit_zero (S := S1024x1024) offsets_zero]
  rw [stored_eq]
  obtain ⟨e0, e1, e2, e3⟩ := block_at t
  funext j
  show Cert.Affine.step (V m c main_v0 (((cfg0.win 0).blk t).view.emb j))
    = Cert.Affine.step (V m c main_v0 (((cfg0.win 1).blk t).view.emb j))
  have h0 : ((cfg0.win 0).blk t).view.emb j = ((cfg0.win 1).blk t).view.emb j := by
    funext a; apply Fin.ext
    match a with
    | ⟨0, _⟩ =>
      show win0_0.index t (0 : Fin 2) * 1024 + 1 * (j 0).val = win0_1.index t (0 : Fin 2) * 1024 + 1 * (j 0).val
      omega
    | ⟨1, _⟩ =>
      show win0_0.index t (1 : Fin 2) * 1024 + 1 * (j 1).val = win0_1.index t (1 : Fin 2) * 1024 + 1 * (j 1).val
      omega
  rw [h0]

/-- An index of the output array lies in point `t`'s block iff each coordinate lies in the block's range. -/
theorem mem_block (t : Fin cfg0.N) (i : S131072x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v1).slice (win0_1.rect t)).set ↔ _
  rw [View.set_slice_whole, Rect.mem_set_unit]
  exact Iff.rfl

/-- The blocks tile the output: row `r` lies in the block of point `r / 1024`. -/
theorem tiled (i : S131072x1024.Idx) :
    ∃ t : Fin cfg0.N, (cfg0.win 1).flush t = true ∧ i ∈ ((cfg0.win 1).blk t).view.set := by
  have hi0 : (i 0).val < 131072 := (i 0).isLt
  have hi1 : (i 1).val < 1024 := (i 1).isLt
  have hN : (i 0).val / 1024 < cfg0.N := by rw [show cfg0.N = 128 from N_0]; omega
  obtain ⟨e0, e1, e2, e3⟩ := block_at ⟨(i 0).val / 1024, hN⟩
  refine ⟨⟨(i 0).val / 1024, hN⟩, flush0_1 _, ?_⟩
  rw [mem_block]
  intro a
  match a with
  | ⟨0, _⟩ =>
    show win0_1.index ⟨(i 0).val / 1024, hN⟩ (0 : Fin 2) * 1024 ≤ (i 0).val
      ∧ (i 0).val < win0_1.index ⟨(i 0).val / 1024, hN⟩ (0 : Fin 2) * 1024 + 1024
    rw [e2]; show (i 0).val / 1024 * 1024 ≤ (i 0).val ∧ (i 0).val < (i 0).val / 1024 * 1024 + 1024
    omega
  | ⟨1, _⟩ =>
    show win0_1.index ⟨(i 0).val / 1024, hN⟩ (1 : Fin 2) * 1024 ≤ (i 1).val
      ∧ (i 1).val < win0_1.index ⟨(i 0).val / 1024, hN⟩ (1 : Fin 2) * 1024 + 1024
    rw [e3]; omega

/-- The output array after the region: the map applied to every element of the region's input array. -/
theorem output_eq (c : Dev nD) : (dats m 0 c).arrAt 1 cfg0.N = mapped (V m c main_v0) :=
  (dats m 0 c).arrAt_eq_of_cover 1 _ (fun t _ => written_eq m c t) tiled

/-- The region's input array is the program's argument regrouped as `131072 × 1024` rows. -/
theorem input_eq (c : Dev nD) : (V m c main_v0 : S131072x1024.Idx → Elt F .f32)
    = shapeCast S131072x1024 (m ((c : Thread nD τ).loc main_arg0)) shapeCasts_S64x2048x1024_S131072x1024 := by
  show StableHlo.after hostOps0 (fun b => m (c, b)) (Proc.devRef .tc main_v0) = _
  after_results
  rfl

/-- The program's result: the map applied to every element of its argument. -/
theorem result_eq (c : Dev nD) :
    (Pipeline.afterTail₀ cfgs (dats m) 0 (V0 m) [hostOps1] c main_v2 : S64x2048x1024.Idx → Elt F .f32)
      = fun j => Cert.Affine.step (m ((c : Thread nD τ).loc main_arg0) j) := by
  unfold Pipeline.afterTail₀
  show StableHlo.after hostOps1 _ (Proc.devRef .tc main_v2) = _
  after_results
  have hout : Pipeline.withArrays (cfgs 0).spec c (V0 m c) (fun w => (dats m 0 c).arrAt w (cfgs 0).N)
        (Proc.devRef .tc main_v1)
      = mapped (shapeCast S131072x1024 (m ((c : Thread nD τ).loc main_arg0))
          shapeCasts_S64x2048x1024_S131072x1024) :=
    ((Pipeline.withArrays_arr spec0 launch0.win.arr_inj c _ _ 1).trans (output_eq m c)).trans
      (congrArg mapped (input_eq m c))
  rw [hout]
  exact Cert.Affine.regroup_map_regroup Cert.Affine.step _ _ _

/-- THE RUN, READ: every weakly fair execution of the program terminates, its result holding the map applied to
    every element of its argument, and its argument unchanged. -/
theorem run : θ_run defs (onTc (τ := τ) (main (F := F))) ⟨m, fun _ => 0, ρ⟩ fun r => ∀ c : Dev nD,
      r.2.mem ((c.tc : Thread nD τ).loc main_v2) = (fun j => Cert.Affine.step (m ((c.tc : Thread nD τ).loc main_arg0) j))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference's result, element by element.

  The reference multiplies the input by the broadcast of the scalar constant `2` and adds the broadcast of the same
  constant. A broadcast of a scalar reads that scalar at every index, and product and sum of arrays act element
  by element: so element `i` of the result is `x i · 2 + 2`, the map of this certificate applied to element `i`
  of the input.
-/
import proofs.«419207_j76166950027787_3_alg».proof.Proof.Gen.ReferenceIdeal.Run
import proofs.«419207_j76166950027787_3_alg».proof.Proof.Gen.ReferenceIdeal.Read
import proofs.«419207_j76166950027787_3_alg».proof.Proof.Affine

noncomputable section

namespace Cert.ReferenceIdeal.RefValue

open Cert.ReferenceIdeal Cert.ReferenceIdeal.Gen Cert.ReferenceIdeal.Read Idealize.ShloMosaic

variable {F : FTy → Type} [FloatOps F]

/-- The term the reference's run ends at is the map `x ↦ x · 2 + 2` applied to every element of its argument. -/
theorem result_eq (x : (⟨S64x2048x1024, .f32⟩ : BufTy).Contents (Elt F)) :
    addf (mulf x (broadcastInDim S64x2048x1024 ![] bcast_S_S64x2048x1024 (constant S_ .f32 0x40000000#32)))
        (broadcastInDim S64x2048x1024 ![] bcast_S_S64x2048x1024 (constant S_ .f32 0x40000000#32))
      = fun i => Cert.Affine.step (x i) := by
  rw [val_main_v3_eq]
  funext i
  rw [val_main_v3_apply, val_main_v1_apply, val_main_v0_apply, val_main_cst_apply, val_main_v2_apply,
    val_main_cst_0_apply]
  rfl

end Cert.ReferenceIdeal.RefValue

end
-- ==== Proof.lean ====
/-
  The kernel computes `x · 2 + 2` on every element of an f32 array of shape `64 × 2048 × 1024`: it regroups the
  array as `131072 × 1024` rows, applies the map block of 1024 rows by block over a grid of 128 points, and
  regroups the result back. The reference computes `x · 2 + 2` on the array as it stands. Both print the constant
  `2` as the same f32 word, in the product and in the sum.

  Read over the extended reals the two programs therefore end with the same array, for one reason only: a map
  that acts on each element alone commutes with regrouping the elements (Proof/Affine.lean). No law of
  arithmetic is used — both sides are the same product and the same sum at every element — so the precondition
  (finite inputs) is never opened.

  The pieces: each of the two kernel programs terminates without a fault and leaves its argument unchanged (the
  generated frames); the reference terminates at the composed term of its six operations (its generated run),
  which element by element is the map (Proof/RefValue.lean); the idealized kernel's result, read off its frame
  run — what each grid point writes back, the 128 blocks tiling the output, the two regroupings — is the map
  applied to every element of the argument (Proof/KernelValue.lean). The ideal pass rewrote no operation, so the
  idealization is the kernel's own text and there is nothing to preserve.
-/
import proofs.«419207_j76166950027787_3_alg».proof.Defs
import proofs.«419207_j76166950027787_3_alg».proof.Proof.Gen.Kernel
import proofs.«419207_j76166950027787_3_alg».proof.Proof.Gen.Kernel.Frame
import proofs.«419207_j76166950027787_3_alg».proof.Proof.Gen.KernelIdeal
import proofs.«419207_j76166950027787_3_alg».proof.Proof.Gen.KernelIdeal.Frame
import proofs.«419207_j76166950027787_3_alg».proof.Proof.Gen.ReferenceIdeal
import proofs.«419207_j76166950027787_3_alg».proof.Proof.Gen.ReferenceIdeal.Run
import proofs.«419207_j76166950027787_3_alg».proof.Proof.Gen.Pre_finite_inputs
import proofs.«419207_j76166950027787_3_alg».proof.Proof.Affine
import proofs.«419207_j76166950027787_3_alg».proof.Proof.KernelValue
import proofs.«419207_j76166950027787_3_alg».proof.Proof.RefValue

noncomputable section

namespace Cert.Proof

open Idealize.ShloMosaic Idealize.SL.Sem

/-- The kernel as printed terminates, faults nowhere, and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the argument, both programs end with the array whose element `j` is
    `x j · 2 + 2`, `x` the argument: the kernel by its blocks and regroupings, the reference directly. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
